-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x512_S512x512_0_0 : ∀ a, (![0, 0] : Fin 2 → Nat) a + S512x512.size a ≤ S512x512.size a
  h_S512x512 : 0 < S512x512.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x2048.size a
  hwx0_2 : ∀ i : grid0.Coords, EltTy.bits .f32 = 32 ∨ (Rect.block (s := S8192x2048) S512x512.size (cc0_transform_2 i) (hinb0_2 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.SignSpec.lean ====
/-
  The function both programs compute: a matrix x of shape [M, K] against the SIGNS of a matrix W of shape [K, N].

  The sign is the one that counts zero as positive: sgn w = 1 where w ≥ 0 and −1 elsewhere, read on the extended
  reals (so sgn (+∞) = 1, sgn (−∞) = −1). Entry (p, q) of the product is Σ over k < K of x(p, k) · sgn W(k, q), one
  sum over Fin K.
-/
import Idealize.ShloMosaic.Lib.ValueIdx

noncomputable section

open scoped BigOperators

namespace Cert.SignSpec

open Idealize.ShloMosaic Idealize.ShloMosaic.ValueIdx

/-- The sign of a weight with the sign of zero taken as +1: the comparison w ≥ 0 selects between the two
    constants 1 and −1. -/
def sgn (w : EReal) : EReal :=
  Scalar.select (FloatOps.cmpf (F := Ideal) (φ := .f32) .oge w (FloatOps.ofBits (F := Ideal) .f32 0x00000000#32))
    (FloatOps.ofBits (F := Ideal) .f32 0x3F800000#32) (FloatOps.ofBits (F := Ideal) .f32 0xBF800000#32)

/-- Entry (p, q) of x · sgn(W): the sum over the shared axis of x(p, k) · sgn W(k, q). -/
def entry {M K N : ℕ} (x : (⟨2, ![M, K]⟩ : Shape).Idx → EReal) (W : (⟨2, ![K, N]⟩ : Shape).Idx → EReal)
    (p : Fin M) (q : Fin N) : EReal :=
  ∑ k : Fin K, x (ix2 p k) * sgn (W (ix2 k q))

/-- The whole product x · sgn(W), index by index. -/
def product {M K N : ℕ} (x : (⟨2, ![M, K]⟩ : Shape).Idx → EReal) (W : (⟨2, ![K, N]⟩ : Shape).Idx → EReal) :
    (⟨2, ![M, N]⟩ : Shape).Idx → EReal :=
  fun i => entry x W (i 0) (i 1)

theorem product_ix2 {M K N : ℕ} (x : (⟨2, ![M, K]⟩ : Shape).Idx → EReal) (W : (⟨2, ![K, N]⟩ : Shape).Idx → EReal)
    (p : Fin M) (q : Fin N) : product x W (ix2 p q) = entry x W p q := rfl

/-- An entry of the product depends only on row p of x and column q of W: two pairs of matrices that agree there
    give the same entry. This is what lets a tile of the product be computed from a row band of x and a column band
    of W. -/
theorem entry_congr {M K N M' N' : ℕ}
    (x : (⟨2, ![M, K]⟩ : Shape).Idx → EReal) (W : (⟨2, ![K, N]⟩ : Shape).Idx → EReal)
    (x' : (⟨2, ![M', K]⟩ : Shape).Idx → EReal) (W' : (⟨2, ![K, N']⟩ : Shape).Idx → EReal)
    (p : Fin M) (q : Fin N) (p' : Fin M') (q' : Fin N')
    (hx : ∀ k : Fin K, x (ix2 p k) = x' (ix2 p' k)) (hW : ∀ k : Fin K, W (ix2 k q) = W' (ix2 k q')) :
    entry x W p q = entry x' W' p' q' := by
  unfold entry
  refine Finset.sum_congr rfl fun k _ => ?_
  rw [hx k, hW k]

end Cert.SignSpec

end
-- ==== Proof.KernelBlock.lean ====
/-
  One grid point of the kernel: from a row band of x (512 rows, all 2048 columns) and a column band of W (all 2048
  rows, 512 columns) the body forms the signs of the band of W, narrows both operands (no change of value on the
  extended reals) and multiplies them into a zero accumulator. Entry (p, q) of the tile it stores is therefore
  Σ over k < 2048 of xband(p, k) · sgn Wband(k, q).
-/
import proofs.«182062_j90434831385368_1_alg».proof.Proof.Gen.KernelIdeal.Skeleton
import proofs.«182062_j90434831385368_1_alg».proof.Proof.LibOuterDot
import proofs.«182062_j90434831385368_1_alg».proof.Proof.SignSpec

noncomputable section

open scoped BigOperators

namespace Cert.KernelBlock

open Idealize.ShloMosaic Idealize.ShloMosaic.ValueIdx Cert.KernelIdeal Cert.KernelIdeal.Gen Cert.SignSpec

/-- The stored tile at (p, q): the matrix product into the zero accumulator is the plain sum over the shared axis,
    the narrowing of either operand is the identity, and the selected constant is the sign of the weight. -/
theorem tile_apply (wband : Vec Ideal S2048x512 .f32) (xband : Vec Ideal S512x2048 .f32) (p : Fin 512) (q : Fin 512) :
    k0_pay1 (F := Ideal) wband xband (ix2 p q) = entry xband wband p q := by
  unfold k0_pay1
  refine (Cert.LibOuterDot.matmul_zero_ix2 dot_S512x2048_S2048x512_S512x512_1_0_0_1_n_n rfl rfl rfl rfl rfl rfl rfl rfl
    none _ _ p q).trans ?_
  unfold entry
  refine Finset.sum_congr rfl fun k _ => ?_
  rfl

end Cert.KernelBlock

end
-- ==== Proof.KernelArray.lean ====
/-
  From tiles to the whole array. The grid is 16 × 4: point (bi, bj) takes the row band bi of x (rows bi·512 …
  bi·512 + 511, every column), the column band bj of W (every row, columns bj·512 … bj·512 + 511) and writes tile
  (bi, bj) of the output. An entry of x · sgn(W) depends only on one row of x and one column of W, so the tile a
  point writes is the restriction of the whole product to its 512 × 512 square; the 64 squares fill the 8192 × 2048
  output, so after the run the output array is x · sgn(W).
-/
import proofs.«182062_j90434831385368_1_alg».proof.Proof.Gen.KernelIdeal.Value
import proofs.«182062_j90434831385368_1_alg».proof.Proof.KernelBlock

set_option maxRecDepth 16384

noncomputable section

open scoped BigOperators

namespace Cert.KernelArray

open Cert.KernelIdeal Cert.KernelIdeal.Gen Idealize.ShloMosaic Idealize.ShloMosaic.TcCoe Idealize.SL.Sem
open Idealize.ShloMosaic.ValueIdx Cert.SignSpec
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The tile computed from row band bi of x and column band bj of W is the square (bi, bj) of the whole product:
    entry (p, q) of the tile is entry (bi·512 + p, bj·512 + q) of x · sgn(W), because that entry reads only row
    bi·512 + p of x and column bj·512 + q of W. -/
theorem tile_eq (xband : Vec Ideal S512x2048 .f32) (wband : Vec Ideal S2048x512 .f32)
    (x : Vec Ideal S8192x2048 .f32) (W : Vec Ideal S2048x2048 .f32) (bi bj : ℕ) (hbi : bi ≤ 15) (hbj : bj ≤ 3)
    (hx : ∀ (p : Fin 512) (k : Fin 2048), xband (ix2 p k) = x (ix2 (⟨bi * 512 + p.val, by omega⟩ : Fin 8192) k))
    (hw : ∀ (k : Fin 2048) (q : Fin 512), wband (ix2 k q) = W (ix2 k (⟨bj * 512 + q.val, by omega⟩ : Fin 2048)))
    (p q : Fin 512) :
    k0_pay1 (F := Ideal) wband xband (ix2 p q)
      = product x W (ix2 (⟨bi * 512 + p.val, by omega⟩ : Fin 8192) (⟨bj * 512 + q.val, by omega⟩ : Fin 2048)) := by
  rw [Cert.KernelBlock.tile_apply, product_ix2]
  exact entry_congr _ _ _ _ _ _ _ _ (hx p) (fun k => hw k q)

/-- The printed index maps over the 64 grid points: the x window moves with the output's row block and stays at
    column block 0, the W window stays at row block 0 and moves with the output's column block, and the output's
    block indices stay inside 16 × 4. -/
theorem tile_index : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every one of the 16 × 4 output squares is some grid point's. -/
theorem tile_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- What grid point t writes back is its square of x · sgn(W), of the arrays as the region finds them. -/
theorem flushed_eq (c : Dev nD) (t : Fin cfg0.N) :
    (dats m 0 c).flushed 2 t
      = ((cfg0.win 2).blk t).view.read (Elt Ideal) (product (V m c main_arg0) (V m c main_arg1)) := by
  rw [Cert.KernelIdeal.Value.flushed2]
  unfold out0_2
  rw [View.canon_unit_zero origin]
  simp only [View.ld_unit_zero (S := S2048x512) origin, View.ld_unit_zero (S := S512x2048) origin]
  obtain ⟨e0, e1, e2, e3, b0, b1⟩ := tile_index t
  funext j
  obtain ⟨p, q, rfl⟩ : ∃ (p : Fin 512) (q : Fin 512), j = ix2 p q := ⟨j 0, j 1, eq_ix2 j⟩
  show k0_pay1 (F := Ideal) (iblk m c 1 t) (iblk m c 0 t) (ix2 p q)
    = product (V m c main_arg0) (V m c main_arg1) (((cfg0.win 2).blk t).view.emb (ix2 p q))
  refine (tile_eq (iblk m c 0 t) (iblk m c 1 t) (V m c main_arg0) (V m c main_arg1)
    (win0_2.index t (0 : Fin 2)) (win0_2.index t (1 : Fin 2)) b0 b1 ?_ ?_ p q).trans ?_
  · intro p' k
    show V m c main_arg0 (((cfg0.win 0).blk t).view.emb (ix2 p' k)) = _
    refine congrArg _ (funext fun a => Fin.ext ?_)
    match a with
    | ⟨0, _⟩ =>
      show win0_0.index t (0 : Fin 2) * 512 + 1 * p'.val = win0_2.index t (0 : Fin 2) * 512 + p'.val
      omega
    | ⟨1, _⟩ =>
      show win0_0.index t (1 : Fin 2) * 2048 + 1 * k.val = k.val
      omega
  · intro k q'
    show V m c main_arg1 (((cfg0.win 1).blk t).view.emb (ix2 k q')) = _
    refine congrArg _ (funext fun a => Fin.ext ?_)
    match a with
    | ⟨0, _⟩ =>
      show win0_1.index t (0 : Fin 2) * 2048 + 1 * k.val = k.val
      omega
    | ⟨1, _⟩ =>
      show win0_1.index t (1 : Fin 2) * 512 + 1 * q'.val = win0_2.index t (1 : Fin 2) * 512 + q'.val
      omega
  · refine congrArg _ (funext fun a => Fin.ext ?_)
    match a with
    | ⟨0, _⟩ =>
      show win0_2.index t (0 : Fin 2) * 512 + p.val = win0_2.index t (0 : Fin 2) * 512 + 1 * p.val
      omega
    | ⟨1, _⟩ =>
      show win0_2.index t (1 : Fin 2) * 512 + q.val = win0_2.index t (1 : Fin 2) * 512 + 1 * q.val
      omega

/-- An index of the output is in point t's square iff each coordinate is in the square's range on its axis. -/
theorem mem_square (t : Fin cfg0.N) (i : S8192x2048.Idx) :
    i ∈ ((cfg0.win 2).blk t).view.set
      ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The squares fill the output: index (r, s) lies in the square of the point with block indices (r / 512, s / 512). -/
theorem squares_cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := tile_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_square]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- The output array after the run is x · sgn(W) of the argument arrays. -/
theorem final (c : Dev nD) :
    (dats m 0 c).arrAt 2 cfg0.N
      = product (m ((c : Thread nD τ).loc main_arg0)) (m ((c : Thread nD τ).loc main_arg1)) :=
  (dats m 0 c).arrAt_eq_of_cover 2 (product (V m c main_arg0) (V m c main_arg1))
    (fun t _ => flushed_eq m c t) squares_cover

/-- The kernel's run with the output array named: x · sgn(W), the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelArray

end
-- ==== Proof.RefProduct.lean ====
/-
  The reference: the signs of the whole W (compare with zero, select 1 or −1, a conversion that changes nothing),
  then one matrix product of the whole x with them. Read at an index this is the product x · sgn(W) of the
  specification.
-/
import proofs.«182062_j90434831385368_1_alg».proof.Proof.Gen.ReferenceIdeal.Read
import proofs.«182062_j90434831385368_1_alg».proof.Proof.SignSpec

noncomputable section

open scoped BigOperators

namespace Cert.RefProduct

open Idealize.ShloMosaic Idealize.ShloMosaic.ValueIdx Cert.ReferenceIdeal Cert.ReferenceIdeal.Read Cert.SignSpec

/-- The reference's sign stage at an index is the sign of the weight there. -/
theorem signs_apply (W : (⟨S2048x2048, .f32⟩ : BufTy).Contents (Elt Ideal)) (i : S2048x2048.Idx) :
    val_main_v3 (F := Ideal) W i = sgn (W i) := by
  rw [val_main_v3_apply, val_main_v2_apply, val_main_v1_apply, val_main_call0_v0_apply, val_main_call0_v1_apply,
    val_main_v0_apply]
  rfl

/-- The reference's result is the product x · sgn(W). -/
theorem result_eq (x : (⟨S8192x2048, .f32⟩ : BufTy).Contents (Elt Ideal)) (W : (⟨S2048x2048, .f32⟩ : BufTy).Contents (Elt Ideal)) :
    val_main_v4 (F := Ideal) x W = product x W := by
  funext i
  obtain ⟨p, q, rfl⟩ : ∃ (p : Fin 8192) (q : Fin 2048), i = ix2 p q := ⟨i 0, i 1, eq_ix2 i⟩
  rw [val_main_v4_apply, product_ix2]
  unfold entry
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [signs_apply, el, er]

end Cert.RefProduct

end
-- ==== Proof.lean ====
/-
  A sign-quantised dense layer: out = x · sgn(W), x of shape [8192, 2048], W of shape [2048, 2048], with
  sgn w = 1 where w ≥ 0 and −1 elsewhere.

  The kernel walks a 16 × 4 grid; at point (bi, bj) it takes 512 whole rows of x and 512 whole columns of W, forms
  the signs of that band of W, narrows both operands to a shorter float format and multiplies them into a zero
  accumulator, which it stores as tile (bi, bj) of the output. The reference forms the signs of all of W and takes
  one matrix product with all of x.

  On the extended reals a change of float format does nothing, and a matrix product into a zero accumulator is the
  plain sum over the shared axis; so entry (p, q) of either side is Σ over k < 2048 of x(p, k) · sgn W(k, q), the
  same 2048 terms in the same sum. The shared axis is never split, so no rearrangement of sums is needed and the
  finiteness of the inputs is not used. Each tile is the restriction of the whole product to its square, and the 64
  squares fill the output.

  The three frames come from the generated frame runs (the reference's from its generated run with the result
  dropped); no rewrite was applied in idealizing the kernel, so that conjunct is trivial.
-/
import proofs.«182062_j90434831385368_1_alg».proof.Defs
import proofs.«182062_j90434831385368_1_alg».proof.Proof.Gen.Kernel
import proofs.«182062_j90434831385368_1_alg».proof.Proof.Gen.Kernel.Skeleton
import proofs.«182062_j90434831385368_1_alg».proof.Proof.Gen.Kernel.Launch
import proofs.«182062_j90434831385368_1_alg».proof.Proof.Gen.Kernel.Points
import proofs.«182062_j90434831385368_1_alg».proof.Proof.Gen.Kernel.Frame
import proofs.«182062_j90434831385368_1_alg».proof.Proof.Gen.KernelIdeal
import proofs.«182062_j90434831385368_1_alg».proof.Proof.Gen.KernelIdeal.Skeleton
import proofs.«182062_j90434831385368_1_alg».proof.Proof.Gen.KernelIdeal.Launch
import proofs.«182062_j90434831385368_1_alg».proof.Proof.Gen.KernelIdeal.Points
import proofs.«182062_j90434831385368_1_alg».proof.Proof.Gen.KernelIdeal.Frame
import proofs.«182062_j90434831385368_1_alg».proof.Proof.Gen.ReferenceIdeal
import proofs.«182062_j90434831385368_1_alg».proof.Proof.Gen.Pre_finite_inputs
import proofs.«182062_j90434831385368_1_alg».proof.Proof.Gen.KernelIdeal.Value
import proofs.«182062_j90434831385368_1_alg».proof.Proof.Gen.ReferenceIdeal.Run
import proofs.«182062_j90434831385368_1_alg».proof.Proof.Gen.ReferenceIdeal.Read
import proofs.«182062_j90434831385368_1_alg».proof.Proof.KernelArray
import proofs.«182062_j90434831385368_1_alg».proof.Proof.RefProduct
import Idealize.ShloMosaic.Adequacy
import Idealize.ShloMosaic.Init

noncomputable section

namespace Cert.Proof

open Idealize.ShloMosaic Idealize.ShloMosaic.TcCoe Idealize.SL.Sem

/-- Both idealized programs end with the output at x · sgn(W) of arguments that agree. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefProduct.result_eq, (hagree c).1, (hagree c).2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
